-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S600000x128 .f32) (main_arg2 : IVec S2x600000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S602112x128 : Shape := ⟨2, ![602112, 128]⟩
abbrev S1x128 : Shape := ⟨2, ![1, 128]⟩
abbrev S4096x128 : Shape := ⟨2, ![4096, 128]⟩

abbrev nBuf : Space → Nat
  | .hbm => 34
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .i32⟩
  | .hbm, ⟨21, _⟩ => ⟨S_, .f32⟩
  | .hbm, ⟨22, _⟩ => ⟨S602112x128, .f32⟩
  | .hbm, ⟨23, _⟩ => ⟨S_, .i32⟩
  | .hbm, ⟨24, _⟩ => ⟨S_, .f32⟩
  | .hbm, ⟨25, _⟩ => ⟨S602112x128, .f32⟩
  | .hbm, ⟨26, _⟩ => ⟨S1x128, .f32⟩
  | .hbm, ⟨27, _⟩ => ⟨S1x128, .f32⟩
  | .hbm, ⟨28, _⟩ => ⟨S602112x128, .f32⟩
  | .hbm, ⟨29, _⟩ => ⟨S600000x128, .f32⟩
  | .hbm, ⟨30, _⟩ => ⟨S_, .f32⟩
  | .hbm, ⟨31, _⟩ => ⟨S50000x128, .f32⟩
  | .hbm, ⟨32, _⟩ => ⟨S600000x1, .i32⟩
  | .hbm, ⟨33, _⟩ => ⟨S50000x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call0_v0 : Ref sig .tc := ⟨.hbm, 21, rfl⟩
abbrev main_v11 : Ref sig .tc := ⟨.hbm, 22, rfl⟩
abbrev main_c_2 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  pads_S600000x128_S602112x128_021120_000 : S600000x128.Pads (![0, 0] : Fin 2 → Nat) ![2112, 0] ![0, 0] S602112x128
  h_S_ : 0 < S_.numel
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S602112x128_S600000x128_0_0 : S602112x128.Slices ![0, 0] S600000x128
  bcast_S_S50000x128 : S_.BroadcastsInDim S50000x128 (![] : Fin 0 → Fin S50000x128.rank)
  gather_S50000x128_S600000x1_S600000x128_1_0_n_n_0_1_1128_wf : GatherDims.WF S50000x128 S600000x1 S600000x128 [1] [0] [] [0] [] 1 ![1, 128]
  dot_S4096x128_S128x128_S4096x128_1_0_0_1_n_n_wf : DotDims.WF S4096x128 S128x128 S4096x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S602112x128.size a
  hwx0_0 : ∀ i : grid0.Coords, EltTy.bits .f32 = 32 ∨ (Rect.block (s := S602112x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S602112x128.size a
  hwx0_1 : ∀ i : grid0.Coords, EltTy.bits .f32 = 32 ∨ (Rect.block (s := S602112x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S602112x128.size a
  hwx0_6 : ∀ i : grid0.Coords, EltTy.bits .f32 = 32 ∨ (Rect.block (s := S602112x128) S4096x128.size (cc0_transform_6 i) (hinb0_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v11) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S2x600000 : Shape := ⟨2, ![2, 600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1x600000 : Shape := ⟨2, ![1, 600000]⟩
abbrev S600000 : Shape := ⟨1, ![600000]⟩
abbrev S600000x1 : Shape := ⟨2, ![600000, 1]⟩

abbrev nBuf : Space → Nat
  | .hbm => 50
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S600000x128, .f32⟩
  | .hbm, ⟨8, _⟩ => ⟨S1x128, .f32⟩
  | .hbm, ⟨9, _⟩ => ⟨S600000x128, .f32⟩
  | .hbm, ⟨10, _⟩ => ⟨S600000x128, .f32⟩
  | .hbm, ⟨11, _⟩ => ⟨S_, .f32⟩
  | .hbm, ⟨12, _⟩ => ⟨S600000x128, .f32⟩
  | .hbm, ⟨13, _⟩ => ⟨S600000x128, .f32⟩
  | .hbm, ⟨14, _⟩ => ⟨S600000x128, .f32⟩
  | .hbm, ⟨15, _⟩ => ⟨S600000x128, .f32⟩
  | .hbm, ⟨16, _⟩ => ⟨S600000x128, .i1⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S600000x128, .f32⟩
  | .hbm, ⟨21, _⟩ => ⟨S600000x128, .f32⟩
  | .hbm, ⟨22, _⟩ => ⟨S600000x128, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S600000x128, .f32⟩
  | .hbm, ⟨27, _⟩ => ⟨S600000x128, .f32⟩
  | .hbm, ⟨28, _⟩ => ⟨S600000x128, .f32⟩
  | .hbm, ⟨29, _⟩ => ⟨S1x128, .f32⟩
  | .hbm, ⟨30, _⟩ => ⟨S600000x128, .f32⟩
  | .hbm, ⟨31, _⟩ => ⟨S600000x128, .f32⟩
  | .hbm, ⟨32, _⟩ => ⟨S1x600000, .i32⟩
  | .hbm, ⟨33, _⟩ => ⟨S600000, .i32⟩
  | .hbm, ⟨34, _⟩ => ⟨S1x600000, .i32⟩
  | .hbm, ⟨35, _⟩ => ⟨S600000, .i32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S600000x1, .i32⟩
  | .hbm, ⟨49, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Message.lean ====
/-
  The edge message of a continuous-filter convolution, as ONE function of its inputs.

  For an edge (a row `r`) and a feature `j`,

      msg r j = g r j · ( Σ_k ssp( Σ_l e r l · W1 l k + b1 k ) · W2 k j + b2 j )

  where `e` holds the edge features, `g` the sender's node features gathered per edge, `W1, b1, W2, b2`
  the two dense layers, and `ssp h = softplus h − log 2` the shifted softplus. The row `r` of the result
  depends on row `r` of `e` and of `g` only: that is what lets the same function be read on a block of
  rows, on the rows padded out to a whole number of blocks, and on the original rows.

  Everything is over the extended reals, where a sum over a finite index set has no order and the two
  programs' matrix products are this one sum.
-/
import Idealize.ShloMosaic.PureOps.Ideal.Laws
import Idealize.ShloMosaic.Lib.ValueIdx
import Idealize.ShloMosaic.Lib.ValueIdxCoords

noncomputable section

namespace Cert.Message

open Idealize.ShloMosaic Idealize.ShloMosaic.ValueIdx

/-- The float zero both programs splat, as an extended real (it IS `0`: `zero_eq`). -/
abbrev zero : EReal := Ideal.ofBits .f32 0x00000000#32
/-- `f32(log 2)`, the one word both programs subtract; never evaluated. -/
abbrev log2w : EReal := Ideal.ofBits .f32 0x3F317218#32

theorem zero_eq : zero = 0 := Ideal.ofBits_zero_f32

/-- The shifted softplus as jax expands `logaddexp h 0 − log 2`: where `h − 0` differs from itself (never, on the
    extended reals) `h + 0`, else `max h 0 + log1p (exp (−|h − 0|))`; then the shift. -/
def ssp (h : EReal) : EReal :=
  Scalar.select (Ideal.cmp .une (h - zero) (h - zero)) (h + zero)
      (max h zero + Ideal.log1p (Ideal.exp (-(max (h - zero) (-(h - zero))))))
    - log2w

/-- The same function with the negation written as a subtraction from zero and the comparison as the
    ordered `≠`: on the extended reals `0 − a = −a`, and the two comparisons are one. -/
theorem ssp_sub_form (h : EReal) :
    Scalar.select (Ideal.cmp .one (h - zero) (h - zero)) (h + zero)
        (max h zero + Ideal.log1p (Ideal.exp (zero - (max (h - zero) (-(h - zero))))))
      - log2w = ssp h := by
  unfold ssp
  have e : zero - (max (h - zero) (-(h - zero))) = -(max (h - zero) (-(h - zero))) := by
    rw [zero_eq, zero_sub]
  rw [e]
  rfl

/-- The message at index `i` of an array of `n` edge rows: the gathered node feature times the second
    dense layer of the activated first. -/
def msgOf {n : Nat} (e g : (⟨2, ![n, 128]⟩ : Shape).Idx → EReal) (W1 W2 : (⟨2, ![128, 128]⟩ : Shape).Idx → EReal)
    (b1 b2 : Fin 128 → EReal) : (⟨2, ![n, 128]⟩ : Shape).Idx → EReal := fun i =>
  g i * ((∑ k : Fin 128, ssp ((∑ l : Fin 128, e (ix2 (i 0) l) * W1 (ix2 l k)) + b1 k) * W2 (ix2 k (i 1))) + b2 (i 1))

/-- ROW LOCALITY: if arrays `e'`, `g'` of `n'` rows agree at row `r'` with `e`, `g` at row `r` (and the layers are the
    same), the messages agree there. -/
theorem msgOf_row {n n' : Nat} (e g : (⟨2, ![n, 128]⟩ : Shape).Idx → EReal) (e' g' : (⟨2, ![n', 128]⟩ : Shape).Idx → EReal)
    (W1 W2 W1' W2' : (⟨2, ![128, 128]⟩ : Shape).Idx → EReal) (b1 b2 b1' b2' : Fin 128 → EReal)
    (r : Fin n) (r' : Fin n') (q : Fin 128)
    (he : ∀ l : Fin 128, e' (ix2 r' l) = e (ix2 r l)) (hg : g' (ix2 r' q) = g (ix2 r q))
    (hW1 : W1' = W1) (hW2 : W2' = W2) (hb1 : b1' = b1) (hb2 : b2' = b2) :
    msgOf e' g' W1' W2' b1' b2' (ix2 r' q) = msgOf e g W1 W2 b1 b2 (ix2 r q) := by
  subst hW1 hW2 hb1 hb2
  unfold msgOf
  simp only [ix2_0, ix2_1, he, hg]

end Cert.Message

end
-- ==== Proof.KernelPayload.lean ====
/-
  The kernel body's one stored value, read at an index of its block.

  The body multiplies the gathered-node block by the second dense layer of the activated first; each matrix
  product is a `[4096,128] × [128,128]` contraction into a zero accumulator, so at row `p`, column `q` it is the sum
  over `k : Fin 128` of the left operand at `(p, k)` times the right at `(k, q)`; a bias is a `[1,128]` row
  broadcast down the rows; the narrowing to bf16 before each product is the identity on the extended reals.
  So the stored block is `Message.msgOf` of the loaded blocks.
-/
import proofs.«131779_j24953759989864_1_alg».proof.Proof.Gen.KernelIdeal.Skeleton
import proofs.«131779_j24953759989864_1_alg».proof.Proof.Message
import Idealize.ShloMosaic.Lib.Pipeline.Value
import Idealize.ShloMosaic.Lib.ValueIdx
import Idealize.ShloMosaic.Lib.ValueIdxCoords
import Idealize.ShloMosaic.PureOps.Ideal.Laws

noncomputable section

namespace Cert.KernelIdeal.Payload

open Cert.KernelIdeal Cert.KernelIdeal.Gen Idealize.ShloMosaic Idealize.ShloMosaic.ValueIdx Cert.Message

/-! ## The contraction's operand indices -/

theorem lhs_dot_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_dot_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_dot_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_dot_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A block's matrix product into the zero accumulator, at row `p` and column `q`: the sum over the 128 contracted
    positions. -/
theorem matmul_block_apply {φ₁ φ₂ : FTy} (lhs : FVec Ideal S4096x128 φ₁) (rhs : FVec Ideal S128x128 φ₂) (p : Fin 4096) (q : Fin 128) :
    matmul dot_S4096x128_S128x128_S4096x128_1_0_0_1_n_n none lhs rhs (constant S4096x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A `[1,128]` row broadcast down the 4096 rows, at row `p` and column `q`: the row's entry `q`. -/
theorem bias_row_apply (v : S1x128.Idx → EReal) (p : Fin 4096) (q : Fin 128) :
    broadcastTo S4096x128 v broadcasts_S1x128_S4096x128 (ix2 p q) = v (ix2 (0 : Fin 1) q) :=
  broadcastTo_apply v broadcasts_S1x128_S4096x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-! ## The stored block -/

theorem pay_apply (v0 v34 : Vec Ideal S4096x128 .f32) (v3 v27 : Vec Ideal S128x128 .f32) (v6 v30 : Vec Ideal S1x128 .f32)
    (p : Fin 4096) (q : Fin 128) :
    k0_pay1 (F := Ideal) v0 v3 v6 v27 v30 v34 (ix2 p q)
      = msgOf (n := 4096) v0 v34 v3 v27 (fun k => v6 (ix2 (0 : Fin 1) k)) (fun k => v30 (ix2 (0 : Fin 1) k)) (ix2 p q) := by
  unfold k0_pay1 msgOf
  simp only [mulf, addf, shapeCast_self, matmul_block_apply, bias_row_apply, ix2_0, ix2_1]
  simp only [truncf, subf, select, cmpf, addf, maximumf, log1p, exp, absf, broadcast, matmul_block_apply, bias_row_apply,
    Ideal.truncf_def]
  refine congrArg (fun s => v34 (ix2 p q) * (s + v30 (ix2 (0 : Fin 1) q))) (Finset.sum_congr rfl fun k _ => ?_)
  refine congrArg (· * v27 (ix2 k q)) ?_
  exact ssp_sub_form _

end Cert.KernelIdeal.Payload

end
-- ==== Proof.KernelBlocks.lean ====
/-
  From blocks to the array: what the pipeline's output array holds after all 147 grid points.

  Point `t` stages rows `4096·t … 4096·t + 4095` of the padded edge array and of the padded gathered-node array, the
  two weight matrices and the two bias rows whole, and writes back the same rows of the output. The stored block is
  the message function of those rows, and the message at a row depends on that row only; so block `t` of the output
  is block `t` of ONE array, the message function of the padded inputs, and the 147 blocks tile all 602112 rows.
-/
import proofs.«131779_j24953759989864_1_alg».proof.Proof.Gen.KernelIdeal.Frame
import proofs.«131779_j24953759989864_1_alg».proof.Proof.KernelPayload
import Idealize.ShloMosaic.Lib.Pipeline.Value

set_option maxRecDepth 16384

noncomputable section

namespace Cert.KernelIdeal.Blocks

open Cert.KernelIdeal Cert.KernelIdeal.Gen Cert.KernelIdeal.Payload Idealize.ShloMosaic Idealize.ShloMosaic.TcCoe
open Idealize.SL.Sem Idealize.ShloMosaic.ValueIdx Cert.Message
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The stored block at block index `y` is the message of the padded arrays at array index `i`, whenever the block's
    row `y 0` of the two row-blocked operands is the arrays' row `i 0`, the columns agree, and the whole-array operands
    are the arrays. -/
theorem block_msg (x0 x1 : Vec Ideal S4096x128 .f32) (x2 x4 : Vec Ideal S128x128 .f32) (x3 x5 : Vec Ideal S1x128 .f32)
    (E NG : S602112x128.Idx → EReal) (W1 W2 : S128x128.Idx → EReal) (B1 B2 : S1x128.Idx → EReal)
    (y : S4096x128.Idx) (i : S602112x128.Idx) (hcol : i 1 = y 1)
    (h0 : ∀ l : Fin 128, x0 (ix2 (y 0) l) = E (ix2 (i 0) l)) (h1 : x1 y = NG i)
    (h2 : x2 = W1) (h4 : x4 = W2) (h3 : x3 = B1) (h5 : x5 = B2) :
    k0_pay1 (F := Ideal) x0 x2 x3 x4 x5 x1 y
      = msgOf (n := 602112) E NG W1 W2 (fun k => B1 (ix2 (0 : Fin 1) k)) (fun k => B2 (ix2 (0 : Fin 1) k)) i := by
  subst h2 h4 h3 h5
  obtain ⟨p, q, rfl⟩ : ∃ (p : Fin 4096) (q : Fin 128), y = ix2 p q := ⟨y 0, y 1, eq_ix2 y⟩
  obtain ⟨r, q', rfl⟩ : ∃ (r : Fin 602112) (q' : Fin 128), i = ix2 r q' := ⟨i 0, i 1, eq_ix2 i⟩
  have hq : q' = q := hcol
  subst hq
  rw [pay_apply]
  exact msgOf_row E NG x0 x1 x2 x4 x2 x4 _ _ _ _ r p _ h0 h1 rfl rfl rfl rfl

/-- The printed index maps, decided over the grid: the row-blocked windows are at block row `t`, column block 0; the
    whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The padded message array: the message function of the operands as the region finds them. -/
def padded (c : Dev nD) : S602112x128.Idx → EReal :=
  msgOf (n := 602112) (V m c main_v11) (V m c main_v12) (V m c main_arg3) (V m c main_arg5)
    (fun k => V m c main_v13 (ix2 (0 : Fin 1) k)) (fun k => V m c main_v14 (ix2 (0 : Fin 1) k))

/-- WHAT POINT `t` WRITES BACK is block `t` of the padded message array. -/
theorem flushed_eq (c : Dev nD) (t : Fin cfg0.N) :
    (dats m 0 c).flushed 6 t = ((cfg0.win 6).blk t).view.read (Elt Ideal) (padded m c) := by
  show (cfg0.win 6).cut (grid0.coords t) ((dats m 0 c).after 6 t) = _
  rw [after0_6]
  unfold out0_6
  rw [View.canon_unit_zero hz]
  simp only [View.ld_unit_zero (S := S4096x128) hz, View.ld_unit_zero (S := S128x128) hz, View.ld_unit_zero (S := S1x128) hz]
  obtain ⟨e00, e01, e10, e11, e20, e21, e30, e31, e40, e41, e50, e51, e60, e61⟩ := idx_facts t
  funext j
  show k0_pay1 (F := Ideal) (iblk m c 0 t) (iblk m c 2 t) (iblk m c 3 t) (iblk m c 4 t) (iblk m c 5 t) (iblk m c 1 t) j
    = padded m c (((cfg0.win 6).blk t).view.emb j)
  unfold padded
  refine block_msg (iblk m c 0 t) (iblk m c 1 t) (iblk m c 2 t) (iblk m c 4 t) (iblk m c 3 t) (iblk m c 5 t)
    (V m c main_v11) (V m c main_v12) (V m c main_arg3) (V m c main_arg5) (V m c main_v13) (V m c main_v14)
    j (((cfg0.win 6).blk t).view.emb j) ?_ ?_ ?_ ?_ ?_ ?_ ?_
  · -- the column is the block's column: the output's column block is block 0
    refine Fin.ext ?_
    show win0_6.index t (1 : Fin 2) * 128 + 1 * (j 1).val = (j 1).val
    omega
  · -- row `j 0` of the staged edge block is row `4096·t + j 0` of the padded edge array
    intro l
    show V m c main_v11 (((cfg0.win 0).blk t).view.emb (ix2 (j 0) l)) = V m c main_v11 (ix2 ((((cfg0.win 6).blk t).view.emb j) 0) l)
    refine congrArg _ (funext fun a => Fin.ext ?_)
    match a with
    | ⟨0, _⟩ => show win0_0.index t (0 : Fin 2) * 4096 + 1 * (j 0).val = win0_6.index t (0 : Fin 2) * 4096 + 1 * (j 0).val; omega
    | ⟨1, _⟩ => show win0_0.index t (1 : Fin 2) * 128 + 1 * l.val = l.val; omega
  · -- the staged gathered-node block moves with the output block
    show V m c main_v12 (((cfg0.win 1).blk t).view.emb j) = V m c main_v12 (((cfg0.win 6).blk t).view.emb j)
    refine congrArg _ (funext fun a => Fin.ext ?_)
    match a with
    | ⟨0, _⟩ => show win0_1.index t (0 : Fin 2) * 4096 + 1 * (j 0).val = win0_6.index t (0 : Fin 2) * 4096 + 1 * (j 0).val; omega
    | ⟨1, _⟩ => show win0_1.index t (1 : Fin 2) * 128 + 1 * (j 1).val = win0_6.index t (1 : Fin 2) * 128 + 1 * (j 1).val; omega
  · -- the first layer's weights are staged whole
    funext y
    show V m c main_arg3 (((cfg0.win 2).blk t).view.emb y) = V m c main_arg3 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · -- the second layer's weights are staged whole
    funext y
    show V m c main_arg5 (((cfg0.win 4).blk t).view.emb y) = V m c main_arg5 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · -- the first bias row is staged whole
    funext y
    show V m c main_v13 (((cfg0.win 3).blk t).view.emb y) = V m c main_v13 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · -- the second bias row is staged whole
    funext y
    show V m c main_v14 (((cfg0.win 5).blk t).view.emb y) = V m c main_v14 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega

/-- An index of the output array is in point `t`'s block iff each coordinate is in the block's range on its axis. -/
theorem mem_blk (t : Fin cfg0.N) (i : S602112x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v15).slice (win0_6.rect t)).set ↔ _
  rw [View.set_slice_whole, Rect.mem_set_unit]
  exact Iff.rfl

/-- THE COVER: row `r` of the output array lies in the block of point `r / 4096`, and every point writes back:
    `147 · 4096 = 602112` rows, no row left out. -/
theorem cover (i : S602112x128.Idx) :
    ∃ t : Fin cfg0.N, (cfg0.win 6).flush t = true ∧ i ∈ ((cfg0.win 6).blk t).view.set := by
  have hi0 : (i 0).val < 602112 := (i 0).isLt
  have hi1 : (i 1).val < 128 := (i 1).isLt
  have hN : grid0.N = 147 := N_0
  obtain ⟨t, ht⟩ : ∃ t : Fin cfg0.N, t.val = (i 0).val / 4096 :=
    ⟨⟨(i 0).val / 4096, by show (i 0).val / 4096 < grid0.N; rw [hN]; omega⟩, rfl⟩
  obtain ⟨e00, e01, e10, e11, e20, e21, e30, e31, e40, e41, e50, e51, e60, e61⟩ := idx_facts t
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 128 ≤ (i 1).val ∧ (i 1).val < win0_6.index t (1 : Fin 2) * 128 + 128; omega

/-- THE OUTPUT ARRAY after the region: the padded message array. -/
theorem final (c : Dev nD) : (dats m 0 c).arrAt 6 cfg0.N = padded m c :=
  (dats m 0 c).arrAt_eq_of_cover 6 (padded m c) (fun t _ => flushed_eq m c t) cover

end Cert.KernelIdeal.Blocks

end
-- ==== Proof.KernelTail.lean ====
/-
  The kernel's result array.

  Before the region the program gathers the sender's node features per edge, pads the edge features and the gathered
  features with 2112 rows to 602112 = 147 · 4096 rows, and reshapes the two biases to rows; after it, it keeps the
  first 600000 rows of the region's output and scatter-adds them into zeros at the receivers.

  The padded rows never reach the result: the message at a row reads that row only, so the first 600000 rows of the
  message function of the padded arrays are the message function of the arrays themselves. What the 2112 padding rows
  hold is never asked.
-/
import proofs.«131779_j24953759989864_1_alg».proof.Proof.Gen.KernelIdeal.Frame
import proofs.«131779_j24953759989864_1_alg».proof.Proof.KernelBlocks
import Idealize.ShloMosaic.Lib.Pipeline.Value
import Idealize.ShloMosaic.Lib.StableHlo.Run
import Idealize.ShloMosaic.Lib.KernelVsHost

set_option maxRecDepth 16384

noncomputable section

namespace Cert.KernelIdeal.Tail

open Cert.KernelIdeal Cert.KernelIdeal.Gen Cert.KernelIdeal.Blocks Idealize.ShloMosaic Idealize.ShloMosaic.TcCoe
open Idealize.SL.Sem Idealize.ShloMosaic.StableHlo Idealize.ShloMosaic.ValueIdx Cert.Message

variable (m : (ℓ : Loc nD τ sig) → Buf (Elt Ideal) ℓ)

/-! ## The host operations before the region -/

/-- Row 0 of the index pair: the receiver of each edge. -/
def receiver (c : Dev nD) : IVec S600000 32 :=
  shapeCast S600000 (extractStridedSlice S1x600000 ![0, 0] (m ((c : Thread nD τ).loc main_arg2)) slices_S2x600000_S1x600000_0_0) shapeCasts_S1x600000_S600000

/-- Row 1 of the index pair: the sender of each edge. -/
def sender (c : Dev nD) : IVec S600000 32 :=
  shapeCast S600000 (extractStridedSlice S1x600000 ![1, 0] (m ((c : Thread nD τ).loc main_arg2)) slices_S2x600000_S1x600000_1_0) shapeCasts_S1x600000_S600000

/-- The sender's node features, gathered per edge (a negative index counted from the end, as jax normalizes it). -/
def gathered (c : Dev nD) : S600000x128.Idx → EReal :=
  Host.gather gather_S50000x128_S600000x1_S600000x128_1_0_n_n_0_1_1128 (m ((c : Thread nD τ).loc main_arg0))
    (broadcastInDim S600000x1 ![0] bcast_S600000_S600000x1_0
      (select (cmpi .slt (sender m c) (broadcastInDim S600000 ![] bcast_S_S600000 (constantI S_ 32 0#32)))
        (addi (sender m c) (broadcastInDim S600000 ![] bcast_S_S600000 (constantI S_ 32 50000#32)))
        (sender m c)))

/-- The padding value: the integer zero converted. Never read by the result. -/
abbrev padv : S_.Idx → EReal := sitofp (F := Ideal) .f32 (constantI S_ 32 0#32)

theorem V_edges (c : Dev nD) : (V m c main_v11 : S602112x128.Idx → EReal)
    = pad S602112x128 ![0, 0] ![2112, 0] ![0, 0] (m ((c : Thread nD τ).loc main_arg1)) padv pads_S600000x128_S602112x128_021120_000 h_S_ := by
  dsimp only [V, V0]
  simp only [hostOps0, hostOps0_1, hostOps0_2, hostOps0_3, hostOps0_4, List.flatten_cons, List.flatten_nil, List.append_nil, List.cons_append, List.nil_append]
  after_results
  rfl

theorem V_gathered (c : Dev nD) : (V m c main_v12 : S602112x128.Idx → EReal)
    = pad S602112x128 ![0, 0] ![2112, 0] ![0, 0] (gathered m c) padv pads_S600000x128_S602112x128_021120_000 h_S_ := by
  dsimp only [V, V0]
  simp only [hostOps0, hostOps0_1, hostOps0_2, hostOps0_3, hostOps0_4, List.flatten_cons, List.flatten_nil, List.append_nil, List.cons_append, List.nil_append]
  after_results
  rfl

theorem V_bias1 (c : Dev nD) : (V m c main_v13 : S1x128.Idx → EReal)
    = shapeCast S1x128 (m ((c : Thread nD τ).loc main_arg4)) shapeCasts_S128_S1x128 := by
  dsimp only [V, V0]
  simp only [hostOps0, hostOps0_1, hostOps0_2, hostOps0_3, hostOps0_4, List.flatten_cons, List.flatten_nil, List.append_nil, List.cons_append, List.nil_append]
  after_results
  rfl

theorem V_bias2 (c : Dev nD) : (V m c main_v14 : S1x128.Idx → EReal)
    = shapeCast S1x128 (m ((c : Thread nD τ).loc main_arg6)) shapeCasts_S128_S1x128 := by
  dsimp only [V, V0]
  simp only [hostOps0, hostOps0_1, hostOps0_2, hostOps0_3, hostOps0_4, List.flatten_cons, List.flatten_nil, List.append_nil, List.cons_append, List.nil_append]
  after_results
  rfl

theorem V_receiver (c : Dev nD) : (V m c main_v1 : IVec S600000 32) = receiver m c := by
  dsimp only [V, V0]
  simp only [hostOps0, hostOps0_1, hostOps0_2, hostOps0_3, hostOps0_4, List.flatten_cons, List.flatten_nil, List.append_nil, List.cons_append, List.nil_append]
  after_results
  rfl

/-! ## Reading the layout operations at an index -/

/-- A bias reshaped to a row, read at column `k`: the bias's entry `k`. -/
theorem bias_row_read (x : S128.Idx → EReal) (k : Fin 128) :
    shapeCast S1x128 x shapeCasts_S128_S1x128 (ix2 (0 : Fin 1) k) = x (ix1 k) :=
  shapeCast_apply x shapeCasts_S128_S1x128 (ix2 (0 : Fin 1) k) (ix1 k)
    (by rewrite [Shape.rowMajor_val_two, Shape.rowMajor_val_one]; show k.val = 0 * 128 + k.val; omega)

/-- Row `r < 600000` of an array padded below is the array's row `r`. -/
theorem pad_row_read (x : S600000x128.Idx → EReal) (v : S_.Idx → EReal) (r : Fin 600000) (l : Fin 128) :
    pad S602112x128 ![0, 0] ![2112, 0] ![0, 0] x v pads_S600000x128_S602112x128_021120_000 h_S_
        (ix2 (⟨r.val, by omega⟩ : Fin 602112) l) = x (ix2 r l) :=
  pad_apply_of_inside ![0, 0] ![2112, 0] ![0, 0] x v pads_S600000x128_S602112x128_021120_000 h_S_ _ (ix2 r l) (fun a => by
    match a with
    | ⟨0, _⟩ => show r.val = 0 + r.val * (0 + 1); omega
    | ⟨1, _⟩ => show l.val = 0 + l.val * (0 + 1); omega)

/-- THE PADDING DROPS OUT: the first 600000 rows of the message function of the padded arrays are the message function
    of the arrays. -/
theorem slice_padded (E NG : S600000x128.Idx → EReal) (vE vG : S_.Idx → EReal) (W1 W2 : S128x128.Idx → EReal) (b1 b2 : Fin 128 → EReal) :
    extractStridedSlice S600000x128 ![0, 0]
        (msgOf (n := 602112) (pad S602112x128 ![0, 0] ![2112, 0] ![0, 0] E vE pads_S600000x128_S602112x128_021120_000 h_S_)
          (pad S602112x128 ![0, 0] ![2112, 0] ![0, 0] NG vG pads_S600000x128_S602112x128_021120_000 h_S_) W1 W2 b1 b2)
        slices_S602112x128_S600000x128_0_0
      = msgOf (n := 600000) E NG W1 W2 b1 b2 := by
  funext i
  obtain ⟨r, q, rfl⟩ : ∃ (r : Fin 600000) (q : Fin 128), i = ix2 r q := ⟨i 0, i 1, eq_ix2 i⟩
  refine (extractStridedSlice_apply ![0, 0] _ slices_S602112x128_S600000x128_0_0 (ix2 r q)
    (ix2 (⟨r.val, by omega⟩ : Fin 602112) q) (fun a => by
      match a with
      | ⟨0, _⟩ => show r.val = 0 + r.val; omega
      | ⟨1, _⟩ => show q.val = 0 + q.val; omega)).trans ?_
  exact msgOf_row E NG _ _ W1 W2 W1 W2 b1 b2 b1 b2 r _ q (fun l => pad_row_read E vE r l) (pad_row_read NG vG r q) rfl rfl rfl rfl

/-! ## The result -/

/-- What the kernel's program leaves in its result buffer: the messages of the 600000 edges, summed per receiver. -/
def result (c : Dev nD) : S50000x128.Idx → EReal :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (receiver m c))
    (msgOf (n := 600000) (m ((c : Thread nD τ).loc main_arg1)) (gathered m c) (m ((c : Thread nD τ).loc main_arg3))
      (m ((c : Thread nD τ).loc main_arg5)) (fun k => m ((c : Thread nD τ).loc main_arg4) (ix1 k))
      (fun k => m ((c : Thread nD τ).loc main_arg6) (ix1 k)))

/-- The first 600000 rows of the region's output array are the messages of the 600000 edges. -/
theorem sliced_output (c : Dev nD) :
    extractStridedSlice S600000x128 ![0, 0] (padded m c) slices_S602112x128_S600000x128_0_0
      = msgOf (n := 600000) (m ((c : Thread nD τ).loc main_arg1)) (gathered m c) (m ((c : Thread nD τ).loc main_arg3))
          (m ((c : Thread nD τ).loc main_arg5)) (fun k => m ((c : Thread nD τ).loc main_arg4) (ix1 k))
          (fun k => m ((c : Thread nD τ).loc main_arg6) (ix1 k)) := by
  have hb1 : (fun k : Fin 128 => V m c main_v13 (ix2 (0 : Fin 1) k)) = fun k => m ((c : Thread nD τ).loc main_arg4) (ix1 k) :=
    funext fun k => by rw [V_bias1]; exact bias_row_read _ k
  have hb2 : (fun k : Fin 128 => V m c main_v14 (ix2 (0 : Fin 1) k)) = fun k => m ((c : Thread nD τ).loc main_arg6) (ix1 k) :=
    funext fun k => by rw [V_bias2]; exact bias_row_read _ k
  unfold padded
  rw [hb1, hb2, V_edges, V_gathered, V_main_arg3, V_main_arg5]
  exact slice_padded _ _ _ _ _ _ _ _

/-- THE LINES AFTER THE REGION, read: the result buffer ends at `result`. -/
theorem tail_eq (c : Dev nD) :
    Pipeline.afterTail₀ cfgs (dats m) 0 (V0 m) [hostOps1] c main_v19 = result m c := by
  have hA : Pipeline.withArrays (cfgs 0).spec c (V0 m c) (fun w => (dats m 0 c).arrAt w (cfgs 0).N) (Proc.devRef .tc main_v15)
      = padded m c := (Pipeline.withArrays_arr spec0 launch0.win.arr_inj c _ _ 6).trans (final m c)
  have hB : Pipeline.withArrays (cfgs 0).spec c (V0 m c) (fun w => (dats m 0 c).arrAt w (cfgs 0).N) (Proc.devRef .tc main_v1)
      = receiver m c :=
    (Pipeline.withArrays_of_ne _ c (V0 m c) _ main_v1 (by exact (by decide : ∀ w, Pipeline.arrRef spec0 w ≠ main_v1))).trans (V_receiver m c)
  unfold Pipeline.afterTail₀
  show StableHlo.after hostOps1 _ (Proc.devRef .tc main_v19) = _
  after_results
  rw [hA, hB, sliced_output]
  rfl

end Cert.KernelIdeal.Tail

end
-- ==== Proof.KernelRun.lean ====
/-
  The idealized kernel's run, with its result named.

  Every weakly fair execution of the program terminates; the pipeline's output array ends at the padded message array,
  the lines after the region slice it and scatter-add it, so the result buffer ends at `Tail.result`; and the seven
  argument arrays end as launched.
-/
import proofs.«131779_j24953759989864_1_alg».proof.Proof.Gen.KernelIdeal.Frame
import proofs.«131779_j24953759989864_1_alg».proof.Proof.KernelTail

set_option maxRecDepth 16384

noncomputable section

namespace Cert.KernelIdeal.Run

open Cert.KernelIdeal Cert.KernelIdeal.Gen Cert.KernelIdeal.Tail Idealize.ShloMosaic Idealize.ShloMosaic.TcCoe
open Idealize.SL.Sem

variable (m : (ℓ : Loc nD τ sig) → Buf (Elt Ideal) ℓ) (ρ : Dev nD → PrngReg)

theorem run_result : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v19 (Pipeline.mem_restRefs_of main_v19 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c))⟩)
    (run_main m ρ)

end Cert.KernelIdeal.Run

end
-- ==== Proof.RefMessage.lean ====
/-
  The reference's message array.

  The reference forms `edges · W1 + b1`, the shifted softplus of it, `· W2 + b2`, and multiplies by the gathered sender
  features — whole `[600000,128]` arrays, each product a contraction over 128 positions, each bias a `[128]` vector
  broadcast along the rows. Read at a row and a column this is `Message.msgOf`, the gather left as it stands.
-/
import proofs.«131779_j24953759989864_1_alg».proof.Proof.Gen.ReferenceIdeal.Read
import proofs.«131779_j24953759989864_1_alg».proof.Proof.Message
import Idealize.ShloMosaic.Lib.ValueIdx
import Idealize.ShloMosaic.Lib.ValueIdxCoords

noncomputable section

namespace Cert.ReferenceIdeal.RefValue

open Cert.ReferenceIdeal Cert.ReferenceIdeal.Gen Cert.ReferenceIdeal.Read Idealize.ShloMosaic Idealize.ShloMosaic.ValueIdx
open Cert.Message

/-! ## The composed index functions are the coordinates -/

theorem lidx7 (r : Fin 600000) (q k : Fin 128) : lidx_main_v7 (ix2 r q) k = ix2 r k :=
  funext fun a => Fin.ext (by match a with | ⟨0, _⟩ => rfl | ⟨1, _⟩ => rfl)
theorem ridx7 (r : Fin 600000) (q k : Fin 128) : ridx_main_v7 (ix2 r q) k = ix2 k q :=
  funext fun a => Fin.ext (by match a with | ⟨0, _⟩ => rfl | ⟨1, _⟩ => rfl)
theorem lidx0 (r : Fin 600000) (q k : Fin 128) : lidx_main_v0 (ix2 r q) k = ix2 r k :=
  funext fun a => Fin.ext (by match a with | ⟨0, _⟩ => rfl | ⟨1, _⟩ => rfl)
theorem ridx0 (r : Fin 600000) (q k : Fin 128) : ridx_main_v0 (ix2 r q) k = ix2 k q :=
  funext fun a => Fin.ext (by match a with | ⟨0, _⟩ => rfl | ⟨1, _⟩ => rfl)
theorem bias1_idx (r : Fin 600000) (q : Fin 128) : idx_main_v1 (idx_main_v2 (ix2 r q)) = ix1 q :=
  funext fun a => Fin.ext (by match a with | ⟨0, _⟩ => rfl)
theorem bias2_idx (r : Fin 600000) (q : Fin 128) : idx_main_v8 (idx_main_v9 (ix2 r q)) = ix1 q :=
  funext fun a => Fin.ext (by match a with | ⟨0, _⟩ => rfl)

/-- The array the reference scatters is the message function of the arguments, the gathered features as gathered. -/
theorem msg_eq (x0 : (⟨S50000x128, .f32⟩ : BufTy).Contents (Elt Ideal)) (x1 : (⟨S600000x128, .f32⟩ : BufTy).Contents (Elt Ideal))
    (x2 : (⟨S2x600000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v22 (F := Ideal) x0 x1 x2 x3 x4 x5 x6
      = msgOf (n := 600000) x1 (val_main_v21 (F := Ideal) x0 x2) x3 x5 (fun k => x4 (ix1 k)) (fun k => x6 (ix1 k)) := by
  funext i
  obtain ⟨r, q, rfl⟩ : ∃ (r : Fin 600000) (q : Fin 128), i = ix2 r q := ⟨i 0, i 1, eq_ix2 i⟩
  rw [val_main_v22_apply, val_main_v10_apply, val_main_v7_apply, val_main_v9_apply, val_main_v8_apply]
  simp only [val_main_v6, val_main_v4, val_main_call0_v4, val_main_call0_v3, val_main_call0_v6, val_main_call0_v11,
    val_main_call0_v1, val_main_call0_v10, val_main_call0_v9, val_main_call0_v8, val_main_call0_v7, val_main_v3,
    subf, addf, select, cmpf, maximumf, Host.absf, Host.negf, Host.exp, Host.log1p,
    val_main_v0_apply, val_main_v2_apply, val_main_v1_apply, val_main_v5_apply, val_main_cst_apply,
    val_main_call0_v0_apply, val_main_call0_v2_apply, val_main_call0_v5_apply, val_main_call0_cst_apply,
    lidx7, ridx7, lidx0, ridx0, bias1_idx, bias2_idx, ix2_0, ix2_1]
  rfl

end Cert.ReferenceIdeal.RefValue

end
-- ==== Proof.lean ====
/-
  The certificate of a continuous-filter convolution's message passing: a Pallas kernel for the edge network, with
  the gather before it and the segment sum after it left to the host, against the same computation written in jnp.

  Both programs compute, for every edge `r` and feature `j`,

      msg r j = nodes[sender r] j · ( Σ_k ssp( Σ_l edges r l · W1 l k + b1 k ) · W2 k j + b2 j ),

  `ssp` the shifted softplus, and add `msg r` into row `receiver r` of a zero array. The kernel computes `msg` in
  blocks of 4096 rows over the rows padded to 147 blocks, narrowing to bf16 before each matrix product (the identity on
  the extended reals), and the program slices the padding off again; the reference computes it on whole arrays. A
  message row reads only its own row of the inputs, so blocking and padding change nothing; the two matrix products
  are the same finite sums; the two spellings of the softplus differ by `0 − a = −a`. Gather and segment sum are the
  same operations of the same operands on both sides and are never opened. No step needs the inputs finite.

  `Message` states the function; `KernelPayload`, `KernelBlocks`, `KernelTail`, `KernelRun` read the kernel's program
  as it; `RefMessage` reads the reference as it.
-/
import proofs.«131779_j24953759989864_1_alg».proof.Defs
import proofs.«131779_j24953759989864_1_alg».proof.Proof.Gen.Kernel
import proofs.«131779_j24953759989864_1_alg».proof.Proof.Gen.Kernel.Skeleton
import proofs.«131779_j24953759989864_1_alg».proof.Proof.Gen.Kernel.Launch
import proofs.«131779_j24953759989864_1_alg».proof.Proof.Gen.Kernel.Points
import proofs.«131779_j24953759989864_1_alg».proof.Proof.Gen.Kernel.Frame
import proofs.«131779_j24953759989864_1_alg».proof.Proof.Gen.KernelIdeal
import proofs.«131779_j24953759989864_1_alg».proof.Proof.Gen.KernelIdeal.Skeleton
import proofs.«131779_j24953759989864_1_alg».proof.Proof.Gen.KernelIdeal.Launch
import proofs.«131779_j24953759989864_1_alg».proof.Proof.Gen.KernelIdeal.Points
import proofs.«131779_j24953759989864_1_alg».proof.Proof.Gen.KernelIdeal.Frame
import proofs.«131779_j24953759989864_1_alg».proof.Proof.Gen.ReferenceIdeal
import proofs.«131779_j24953759989864_1_alg».proof.Proof.Gen.Pre_finite_inputs
import proofs.«131779_j24953759989864_1_alg».proof.Proof.Gen.ReferenceIdeal.Run
import proofs.«131779_j24953759989864_1_alg».proof.Proof.Gen.ReferenceIdeal.Read
import proofs.«131779_j24953759989864_1_alg».proof.Proof.KernelRun
import proofs.«131779_j24953759989864_1_alg».proof.Proof.RefMessage
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the per-receiver sums of the same message array: the kernel's program by `KernelRun`, the
    reference's because the array it scatters is the message function too (`RefMessage`), of arguments that agree. -/
theorem algebraic : Cert.algebraic_KernelIdeal_ReferenceIdeal := by
  intro m ρ m' ρ' _ hagree
  refine ⟨fun c => Cert.KernelIdeal.Tail.result m c, Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v25_eq]
  unfold Cert.ReferenceIdeal.Read.val_main_v25
  rw [Cert.ReferenceIdeal.RefValue.msg_eq, h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
